-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000 : Shape := ⟨1, ![50000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S650000x128 : Shape := ⟨2, ![650000, 128]⟩
abbrev S1x128 : Shape := ⟨2, ![1, 128]⟩
abbrev S2000x128 : Shape := ⟨2, ![2000, 128]⟩
abbrev S1x1 : Shape := ⟨2, ![1, 1]⟩
abbrev S2000x1 : Shape := ⟨2, ![2000, 1]⟩
abbrev S2000 : Shape := ⟨1, ![2000]⟩

abbrev nBuf : Space → Nat
  | .hbm => 64
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S50000, .i32⟩
  | .hbm, ⟨10, _⟩ => ⟨S650000, .i32⟩
  | .hbm, ⟨11, _⟩ => ⟨S650000, .i32⟩
  | .hbm, ⟨12, _⟩ => ⟨S_, .f32⟩
  | .hbm, ⟨13, _⟩ => ⟨S650000, .f32⟩
  | .hbm, ⟨14, _⟩ => ⟨S_, .f32⟩
  | .hbm, ⟨15, _⟩ => ⟨S50000, .f32⟩
  | .hbm, ⟨16, _⟩ => ⟨S650000x1, .i32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S50000x128, .f32⟩
  | .hbm, ⟨21, _⟩ => ⟨S50000x128, .f32⟩
  | .hbm, ⟨22, _⟩ => ⟨S_, .i32⟩
  | .hbm, ⟨23, _⟩ => ⟨S650000, .i32⟩
  | .hbm, ⟨24, _⟩ => ⟨S650000, .i1⟩
  | .hbm, ⟨25, _⟩ => ⟨S_, .i32⟩
  | .hbm, ⟨26, _⟩ => ⟨S650000, .i32⟩
  | .hbm, ⟨27, _⟩ => ⟨S650000, .i32⟩
  | .hbm, ⟨28, _⟩ => ⟨S650000, .i32⟩
  | .hbm, ⟨29, _⟩ => ⟨S650000x1, .i32⟩
  | .hbm, ⟨30, _⟩ => ⟨S650000x128, .f32⟩
  | .hbm, ⟨31, _⟩ => ⟨S_, .f32⟩
  | .hbm, ⟨32, _⟩ => ⟨S50000x128, .f32⟩
  | .hbm, ⟨33, _⟩ => ⟨S650000x1, .i32⟩
  | .hbm, ⟨34, _⟩ => ⟨S50000x128, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S650000, .i32⟩
  | .hbm, ⟨45, _⟩ => ⟨S650000, .i1⟩
  | .hbm, ⟨46, _⟩ => ⟨S_, .i32⟩
  | .hbm, ⟨47, _⟩ => ⟨S650000, .i32⟩
  | .hbm, ⟨48, _⟩ => ⟨S650000, .i32⟩
  | .hbm, ⟨49, _⟩ => ⟨S650000, .i32⟩
  | .hbm, ⟨50, _⟩ => ⟨S650000x1, .i32⟩
  | .hbm, ⟨51, _⟩ => ⟨S650000x128, .f32⟩
  | .hbm, ⟨52, _⟩ => ⟨S_, .f32⟩
  | .hbm, ⟨53, _⟩ => ⟨S50000x128, .f32⟩
  | .hbm, ⟨54, _⟩ => ⟨S650000x1, .i32⟩
  | .hbm, ⟨55, _⟩ => ⟨S50000x128, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S1x128, .f32⟩
  | .hbm, ⟨61, _⟩ => ⟨S1x1, .f32⟩
  | .hbm, ⟨62, _⟩ => ⟨S50000x1, .f32⟩
  | .hbm, ⟨63, _⟩ => ⟨S50000, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x1, .f32⟩
  | .local _ .vmem, ⟨12, _⟩ => ⟨S2000x1, .f32⟩
  | .local _ .vmem, ⟨13, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S128x1_S1x128 : S128x1.ShapeCasts S1x128
  shapeCasts_S1_S1x1 : S1.ShapeCasts S1x1
  reduces_S2000x128_S2000 : S2000x128.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  scatter_S50000_S650000x1_S650000_n_0_0_1_wf : ScatterDims.WF S50000 S650000x1 S650000 [] [0] [0] 1
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S50000x1.size a
  hwx1_5 : ∀ i : grid1.Coords, EltTy.bits .f32 = 32 ∨ (Rect.block (s := S50000x1) S2000x1.size (cc1_transform_5 i) (hinb1_5 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v23) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000 : Shape := ⟨1, ![50000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S650000x128 : Shape := ⟨2, ![650000, 128]⟩
abbrev S1x128 : Shape := ⟨2, ![1, 128]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S50000, .i32⟩
  | .hbm, ⟨10, _⟩ => ⟨S650000, .i32⟩
  | .hbm, ⟨11, _⟩ => ⟨S650000, .i32⟩
  | .hbm, ⟨12, _⟩ => ⟨S_, .f32⟩
  | .hbm, ⟨13, _⟩ => ⟨S650000, .f32⟩
  | .hbm, ⟨14, _⟩ => ⟨S_, .f32⟩
  | .hbm, ⟨15, _⟩ => ⟨S50000, .f32⟩
  | .hbm, ⟨16, _⟩ => ⟨S650000x1, .i32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S50000x128, .f32⟩
  | .hbm, ⟨21, _⟩ => ⟨S50000x128, .f32⟩
  | .hbm, ⟨22, _⟩ => ⟨S_, .i32⟩
  | .hbm, ⟨23, _⟩ => ⟨S650000, .i32⟩
  | .hbm, ⟨24, _⟩ => ⟨S650000, .i1⟩
  | .hbm, ⟨25, _⟩ => ⟨S_, .i32⟩
  | .hbm, ⟨26, _⟩ => ⟨S650000, .i32⟩
  | .hbm, ⟨27, _⟩ => ⟨S650000, .i32⟩
  | .hbm, ⟨28, _⟩ => ⟨S650000, .i32⟩
  | .hbm, ⟨29, _⟩ => ⟨S650000x1, .i32⟩
  | .hbm, ⟨30, _⟩ => ⟨S650000x128, .f32⟩
  | .hbm, ⟨31, _⟩ => ⟨S_, .f32⟩
  | .hbm, ⟨32, _⟩ => ⟨S50000x128, .f32⟩
  | .hbm, ⟨33, _⟩ => ⟨S650000x1, .i32⟩
  | .hbm, ⟨34, _⟩ => ⟨S50000x128, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S650000x1, .i32⟩
  | .hbm, ⟨56, _⟩ => ⟨S650000x128, .f32⟩
  | .hbm, ⟨57, _⟩ => ⟨S_, .f32⟩
  | .hbm, ⟨58, _⟩ => ⟨S50000x128, .f32⟩
  | .hbm, ⟨59, _⟩ => ⟨S650000x1, .i32⟩
  | .hbm, ⟨60, _⟩ => ⟨S50000x128, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S50000x1, .f32⟩
  | .hbm, ⟨69, _⟩ => ⟨S1x1, .f32⟩
  | .hbm, ⟨70, _⟩ => ⟨S50000x1, .f32⟩
  | .hbm, ⟨71, _⟩ => ⟨S50000x1, .f32⟩
  | .hbm, ⟨72, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_3 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S650000x1_S650000_n_0_0_1_wf : ScatterDims.WF S50000 S650000x1 S650000 [] [0] [0] 1
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.BodyAtIndex.lean ====
/-
  The two kernel bodies, read at one element.

  Both bodies start the same way: a block of 2000 rows of the aggregated features, times the 128×128 weight matrix,
  plus the bias row. Over the extended reals the change of format in front of the product is the identity and the
  product into a zero accumulator is the plain sum over the contraction index, so at row p and column q

      dense p q = (∑ k, a (p, k) · w (k, q)) + b (0, q).

  The first body clamps this below at zero (the rectifier). The second multiplies it, column by column, with the
  regressor's row, sums each row over its 128 columns, and adds the regressor's bias: at row p

      (∑ j, dense p j · r (0, j)) + β (0, 0).
-/
import proofs.«111250_j43009802502548_1_alg».proof.Proof.Gen.KernelIdeal.Skeleton
import proofs.«111250_j43009802502548_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Dense

open Idealize.ShloMosaic Idealize.ShloMosaic.ValueIdx Cert.KernelIdeal Cert.KernelIdeal.Gen

/-! ## The block product at an element -/

theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_contr (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_contr (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of the block product into a zero accumulator: the sum over k of a (p, k) · w (k, q). -/
theorem blockProduct_apply {φ₁ φ₂ : FTy} (a : FVec Ideal S2000x128 φ₁) (w : FVec Ideal S128x128 φ₂) (p : Fin 2000) (q : Fin 128) :
    matmul dot_S2000x128_S128x128_S2000x128_1_0_0_1_n_n none a w (constant S2000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_contr _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- The shared first half of both bodies at (p, q): the block product plus the bias row's entry q. -/
def dense (a : S2000x128.Idx → EReal) (w : S128x128.Idx → EReal) (b : S1x128.Idx → EReal) (p : Fin 2000) (q : Fin 128) : EReal :=
  (∑ k : Fin 128, a (ix2 p k) * w (ix2 k q)) + b (ix2 (0 : Fin 1) q)

/-! ## The rectifier body -/

/-- The first body's stored value at (p, q): the dense value clamped below at zero. -/
theorem reluBody_apply (x0 : Vec Ideal S2000x128 .f32) (x1 : Vec Ideal S128x128 .f32) (x2 : Vec Ideal S1x128 .f32)
    (p : Fin 2000) (q : Fin 128) :
    k0_pay1 (F := Ideal) x0 x1 x2 (ix2 p q) = max (dense x0 x1 x2 p q) (Ideal.ofBits .f32 0x00000000#32) := by
  unfold k0_pay1 dense
  rw [maximumf_apply, addf_apply, blockProduct_apply, broadcastTo_1b_ab_apply]
  simp only [shapeCast_self, truncf_apply, broadcast_apply]
  rfl

/-! ## The regressor body -/

/-- The sum along row p of a 2000×128 block, with the accumulator the kernel prints (the zero word). -/
theorem rowSum_apply (v : FVec Ideal S2000x128 .f32) (h : S2000x128.Reduces [1] S2000) (hφ : FKind.Formats .f32)
    (hacc : (0x00000000#32 : BitVec 32) = 0x00000000#32) (p : Fin 2000) :
    multiReduction .add [1] S2000 v 0x00000000#32 h hφ hacc (ix1 p) = ∑ k : Fin 128, v (ix2 p k) :=
  RowOps.multiReduction_add_row v _ h hφ hacc p

/-- The second body's stored value at row p: the row's dense values weighted by the regressor's row and summed,
    plus the regressor's bias. -/
theorem regressBody_apply (x0 : Vec Ideal S2000x128 .f32) (x1 : Vec Ideal S128x128 .f32) (x2 : Vec Ideal S1x128 .f32)
    (x3 : Vec Ideal S1x128 .f32) (x4 : Vec Ideal S1x1 .f32) (p : Fin 2000) (u : Fin 1) :
    k1_pay1 (F := Ideal) x0 x1 x2 x3 x4 (ix2 p u)
      = (∑ j : Fin 128, dense x0 x1 x2 p j * x3 (ix2 (0 : Fin 1) j)) + x4 (ix2 (0 : Fin 1) (0 : Fin 1)) := by
  obtain rfl : u = 0 := Subsingleton.elim _ _
  unfold k1_pay1 dense
  rw [addf_apply, RowOps.shapeCast_a_a1_apply, rowSum_apply]
  refine congrArg₂ (· + ·) (Finset.sum_congr rfl fun j _ => ?_) ?_
  · rw [mulf_apply, addf_apply, blockProduct_apply, broadcastTo_1b_ab_apply, broadcastTo_1b_ab_apply]
    simp only [shapeCast_self, truncf_apply]
  · rw [broadcastTo_1b_ab_apply]
    simp only [shapeCast_self]

end Cert.KernelIdeal.Dense

end
-- ==== Proof.Layer0Value.lean ====
/-
  The first pallas_call, as one function of whole arrays.

  The call walks the 50000 rows of the aggregated features in 25 blocks of 2000 rows; every point sees the whole
  weight matrix and the whole bias row, and writes back its 2000 rows of

      relu (A · W + b),      entry (r, q) = max ((∑ k, A (r, k) · W (k, q)) + b (0, q)) 0.

  Row r of the result is written by point r / 2000, as row r % 2000 of that point's block, from row r of A: the
  blocks tile the array, so after the last point the output array is this function of the three arrays the call
  was entered with, whatever those were.
-/
import proofs.«111250_j43009802502548_1_alg».proof.Proof.Gen.KernelIdeal.Frame
import proofs.«111250_j43009802502548_1_alg».proof.Proof.BodyAtIndex
import Idealize.ShloMosaic.Lib.Pipeline.Value

set_option maxRecDepth 16384

noncomputable section

namespace Cert.KernelIdeal.Layer0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Dense

/-- Entry (r, q) of the rectified dense layer. -/
def reluAt (A : S50000x128.Idx → EReal) (W : S128x128.Idx → EReal) (b : S1x128.Idx → EReal) (r : Fin 50000) (q : Fin 128) : EReal :=
  max ((∑ k : Fin 128, A (ix2 r k) * W (ix2 k q)) + b (ix2 (0 : Fin 1) q)) (Ideal.ofBits .f32 0x00000000#32)

/-- The rectified dense layer of a whole feature array. -/
def reluLayer (A : S50000x128.Idx → EReal) (W : S128x128.Idx → EReal) (b : S1x128.Idx → EReal) : S50000x128.Idx → EReal :=
  fun i => reluAt A W b ⟨(i 0).val, (i 0).isLt⟩ ⟨(i 1).val, (i 1).isLt⟩

variable (V : (c : Dev nD) → (b : Ref sig .tc) → Buf (Elt Ideal) ((c : Thread nD τ).loc b))

theorem hz : (![0, 0] : Fin 2 → Nat) = fun _ => 0 := funext fun a => by fin_cases a <;> rfl

/-- The index maps over the 25 points: the feature and result blocks move down with the point, the weights and the
    bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back: rows 2000 t … 2000 t + 1999 of the layer of the arrays the call was entered with. -/
theorem flushed_eq (c : Dev nD) (t : Fin cfg0.N) :
    (dat0 V c).flushed 3 t = ((cfg0.win 3).blk t).view.read (Elt Ideal)
      (reluLayer (V c main_v23) (V c main_arg3) (V c main_v24)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S1x128) hz]
  obtain ⟨e00, e01, e10, e11, e20, e21, e30, e31⟩ := idx_facts t
  have ht : t.val < 25 := t.isLt
  funext j
  obtain ⟨p, q, rfl⟩ : ∃ (p : Fin 2000) (q : Fin 128), j = ix2 p q := ⟨j 0, j 1, eq_ix2 j⟩
  have hp : p.val < 2000 := p.isLt
  have hq : q.val < 128 := q.isLt
  refine (reluBody_apply (iblk0 V c 0 t) (iblk0 V c 1 t) (iblk0 V c 2 t) p q).trans ?_
  -- row p of point t's block is row 2000 t + p of the array
  have hr : t.val * 2000 + p.val < 50000 := by omega
  have hemb : ((cfg0.win 3).blk t).view.emb (ix2 p q) = ix2 (⟨t.val * 2000 + p.val, hr⟩ : Fin 50000) q := by
    funext a; apply Fin.ext
    match a with
    | ⟨0, _⟩ => show win0_3.index t (0 : Fin 2) * 2000 + 1 * p.val = t.val * 2000 + p.val; omega
    | ⟨1, _⟩ => show win0_3.index t (1 : Fin 2) * 128 + 1 * q.val = q.val; omega
  have h0 : ∀ k : Fin 128, iblk0 V c 0 t (ix2 p k) = V c main_v23 (ix2 (⟨t.val * 2000 + p.val, hr⟩ : Fin 50000) k) := fun k => by
    have hk : k.val < 128 := k.isLt
    show V c main_v23 (((cfg0.win 0).blk t).view.emb (ix2 p k)) = _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  have h1 : ∀ k : Fin 128, iblk0 V c 1 t (ix2 k q) = V c main_arg3 (ix2 k q) := fun k => by
    have hk : k.val < 128 := k.isLt
    show V c main_arg3 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  have h2 : iblk0 V c 2 t (ix2 (0 : Fin 1) q) = V c main_v24 (ix2 (0 : Fin 1) q) := by
    show V c main_v24 (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  show _ = reluLayer (V c main_v23) (V c main_arg3) (V c main_v24) (((cfg0.win 3).blk t).view.emb (ix2 p q))
  rw [hemb]
  show _ = reluAt (V c main_v23) (V c main_arg3) (V c main_v24) (⟨t.val * 2000 + p.val, hr⟩ : Fin 50000) q
  unfold dense reluAt
  simp only [h0, h1, h2]

/-- An index of the array is in point t's block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v25).slice (win0_3.rect t)).set ↔ _
  rw [View.set_slice_whole, Rect.mem_set_unit]
  exact Iff.rfl

/-- Every row belongs to some point's block: row r to point r / 2000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, -, e30, e31⟩ := idx_facts t
  have ht : t.val = (i 0).val / 2000 := rfl
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- After the call its output array holds the rectified dense layer of the arrays the call was entered with. -/
theorem final (c : Dev nD) :
    (dat0 V c).arrAt 3 cfg0.N = reluLayer (V c main_v23) (V c main_arg3) (V c main_v24) :=
  (dat0 V c).arrAt_eq_of_cover 3 _ (fun t _ => flushed_eq V c t) cover

end Cert.KernelIdeal.Layer0

end
-- ==== Proof.Layer1Value.lean ====
/-
  The second pallas_call, as one function of whole arrays.

  Again 25 blocks of 2000 rows of the aggregated features, the whole weight matrix and bias row at every point, and
  now also the regressor's weights laid out as one row of 128 and its bias as a single entry. Point t writes back a
  column of 2000 numbers: for row r of the features

      out (r, 0) = (∑ j, ((∑ k, A (r, k) · W (k, j)) + b (0, j)) · w (0, j)) + β (0, 0),

  the second dense layer followed by the inner product with the regressor. The column blocks tile the [50000, 1]
  output array, so after the last point the array is this function of the five arrays the call was entered with.
-/
import proofs.«111250_j43009802502548_1_alg».proof.Proof.Gen.KernelIdeal.Frame
import proofs.«111250_j43009802502548_1_alg».proof.Proof.BodyAtIndex
import Idealize.ShloMosaic.Lib.Pipeline.Value

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Dense

/-- Row r of the regressed second layer. -/
def regressAt (A : S50000x128.Idx → EReal) (W : S128x128.Idx → EReal) (b : S1x128.Idx → EReal)
    (w : S1x128.Idx → EReal) (β : S1x1.Idx → EReal) (r : Fin 50000) : EReal :=
  (∑ j : Fin 128, ((∑ k : Fin 128, A (ix2 r k) * W (ix2 k j)) + b (ix2 (0 : Fin 1) j)) * w (ix2 (0 : Fin 1) j))
    + β (ix2 (0 : Fin 1) (0 : Fin 1))

/-- The regressed second layer of a whole feature array, as a column. -/
def regressLayer (A : S50000x128.Idx → EReal) (W : S128x128.Idx → EReal) (b : S1x128.Idx → EReal)
    (w : S1x128.Idx → EReal) (β : S1x1.Idx → EReal) : S50000x1.Idx → EReal :=
  fun i => regressAt A W b w β ⟨(i 0).val, (i 0).isLt⟩

variable (V : (c : Dev nD) → (b : Ref sig .tc) → Buf (Elt Ideal) ((c : Thread nD τ).loc b))

theorem hz : (![0, 0] : Fin 2 → Nat) = fun _ => 0 := funext fun a => by fin_cases a <;> rfl

/-- The index maps over the 25 points: the feature and result blocks move down with the point, everything else
    stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back: rows 2000 t … 2000 t + 1999 of the column. -/
theorem flushed_eq (c : Dev nD) (t : Fin cfg1.N) :
    (dat1 V c).flushed 5 t = ((cfg1.win 5).blk t).view.read (Elt Ideal)
      (regressLayer (V c main_v41) (V c main_arg5) (V c main_v42) (V c main_v43) (V c main_v44)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz,
    View.ld_unit_zero (S := S1x1) hz]
  obtain ⟨e00, e01, e10, e11, e20, e21, e30, e31, e40, e41, e50, e51⟩ := idx_facts t
  have ht : t.val < 25 := t.isLt
  funext j
  obtain ⟨p, u, rfl⟩ : ∃ (p : Fin 2000) (u : Fin 1), j = ix2 p u := ⟨j 0, j 1, eq_ix2 j⟩
  have hp : p.val < 2000 := p.isLt
  have hu : u.val < 1 := u.isLt
  refine (regressBody_apply (iblk1 V c 0 t) (iblk1 V c 1 t) (iblk1 V c 2 t) (iblk1 V c 3 t) (iblk1 V c 4 t) p u).trans ?_
  have hr : t.val * 2000 + p.val < 50000 := by omega
  have hemb : ((cfg1.win 5).blk t).view.emb (ix2 p u) = ix2 (⟨t.val * 2000 + p.val, hr⟩ : Fin 50000) u := by
    funext a; apply Fin.ext
    match a with
    | ⟨0, _⟩ => show win1_5.index t (0 : Fin 2) * 2000 + 1 * p.val = t.val * 2000 + p.val; omega
    | ⟨1, _⟩ => show win1_5.index t (1 : Fin 2) * 1 + 1 * u.val = u.val; omega
  have h0 : ∀ k : Fin 128, iblk1 V c 0 t (ix2 p k) = V c main_v41 (ix2 (⟨t.val * 2000 + p.val, hr⟩ : Fin 50000) k) := fun k => by
    have hk : k.val < 128 := k.isLt
    show V c main_v41 (((cfg1.win 0).blk t).view.emb (ix2 p k)) = _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  have h1 : ∀ k j : Fin 128, iblk1 V c 1 t (ix2 k j) = V c main_arg5 (ix2 k j) := fun k j => by
    have hk : k.val < 128 := k.isLt
    have hj : j.val < 128 := j.isLt
    show V c main_arg5 (((cfg1.win 1).blk t).view.emb (ix2 k j)) = _
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * j.val = j.val; omega
  have h2 : ∀ j : Fin 128, iblk1 V c 2 t (ix2 (0 : Fin 1) j) = V c main_v42 (ix2 (0 : Fin 1) j) := fun j => by
    have hj : j.val < 128 := j.isLt
    show V c main_v42 (((cfg1.win 2).blk t).view.emb (ix2 (0 : Fin 1) j)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * j.val = j.val; omega
  have h3 : ∀ j : Fin 128, iblk1 V c 3 t (ix2 (0 : Fin 1) j) = V c main_v43 (ix2 (0 : Fin 1) j) := fun j => by
    have hj : j.val < 128 := j.isLt
    show V c main_v43 (((cfg1.win 3).blk t).view.emb (ix2 (0 : Fin 1) j)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * j.val = j.val; omega
  have h4 : iblk1 V c 4 t (ix2 (0 : Fin 1) (0 : Fin 1)) = V c main_v44 (ix2 (0 : Fin 1) (0 : Fin 1)) := by
    show V c main_v44 (((cfg1.win 4).blk t).view.emb (ix2 (0 : Fin 1) (0 : Fin 1))) = _
    refine congrArg _ (funext fun a => Fin.ext ?_)
    match a with
    | ⟨0, _⟩ => show win1_4.index t (0 : Fin 2) * 1 + 1 * 0 = 0; omega
    | ⟨1, _⟩ => show win1_4.index t (1 : Fin 2) * 1 + 1 * 0 = 0; omega
  show _ = regressLayer (V c main_v41) (V c main_arg5) (V c main_v42) (V c main_v43) (V c main_v44) (((cfg1.win 5).blk t).view.emb (ix2 p u))
  rw [hemb]
  show _ = regressAt (V c main_v41) (V c main_arg5) (V c main_v42) (V c main_v43) (V c main_v44) (⟨t.val * 2000 + p.val, hr⟩ : Fin 50000)
  unfold dense regressAt
  simp only [h0, h1, h2, h3, h4]

/-- An index of the column is in point t's block iff each coordinate is in the block's range on its axis. -/
theorem mem_blk (t : Fin cfg1.N) (i : S50000x1.Idx) :
    i ∈ ((cfg1.win 5).blk t).view.set ↔ ∀ a : Fin 2, win1_5.index t a * S2000x1.size a ≤ (i a).val ∧ (i a).val < win1_5.index t a * S2000x1.size a + S2000x1.size a := by
  show i ∈ ((View.whole main_v45).slice (win1_5.rect t)).set ↔ _
  rw [View.set_slice_whole, Rect.mem_set_unit]
  exact Iff.rfl

/-- Every row belongs to some point's block: row r to point r / 2000. -/
theorem cover (i : S50000x1.Idx) :
    ∃ t : Fin cfg1.N, (cfg1.win 5).flush t = true ∧ i ∈ ((cfg1.win 5).blk t).view.set := by
  have hi0 : (i 0).val < 50000 := (i 0).isLt
  have hi1 : (i 1).val < 1 := (i 1).isLt
  have hN : cfg1.N = 25 := N_1
  let t : Fin cfg1.N := ⟨(i 0).val / 2000, by rw [hN]; omega⟩
  obtain ⟨-, -, -, -, -, -, -, -, -, -, e50, e51⟩ := idx_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 1 ≤ (i 1).val ∧ (i 1).val < win1_5.index t (1 : Fin 2) * 1 + 1; omega

/-- After the call its output array holds the regressed second layer of the arrays the call was entered with. -/
theorem final (c : Dev nD) :
    (dat1 V c).arrAt 5 cfg1.N
      = regressLayer (V c main_v41) (V c main_arg5) (V c main_v42) (V c main_v43) (V c main_v44) :=
  (dat1 V c).arrAt_eq_of_cover 5 _ (fun t _ => flushed_eq V c t) cover

end Cert.KernelIdeal.Layer1

end
-- ==== Proof.RefLayers.lean ====
/-
  The reference's two dense layers are the kernels' functions.

  The reference computes relu (A · W1 + b1) with a host matrix product, a bias broadcast over the rows and a maximum
  with a zero array; entry (r, q) is max ((∑ k, A (r, k) · W1 (k, q)) + b1 q) 0, which is the first call's function of
  A, W1 and the bias laid out as one row. Its last three operations, (A' · W2 + b2) · Wr + br, give at row r

      (∑ j, ((∑ k, A' (r, k) · W2 (k, j)) + b2 j) · Wr (j, 0)) + br 0,

  which is the second call's function of A', W2, and the bias, the regressor's column and its bias viewed as a
  row, a row and a single entry: a reshape keeps the row-major position, so entry j of the bias is entry (0, j) of
  its row view and entry (j, 0) of the regressor's column is entry (0, j) of its row view.
-/
import proofs.«111250_j43009802502548_1_alg».proof.Proof.Gen.ReferenceIdeal.Read
import proofs.«111250_j43009802502548_1_alg».proof.Proof.Layer0Value
import proofs.«111250_j43009802502548_1_alg».proof.Proof.Layer1Value
import Idealize.ShloMosaic.Lib.ValueLayout

noncomputable section

namespace Cert.RefLayers

open Idealize.ShloMosaic Idealize.ShloMosaic.ValueIdx
open Cert.ReferenceIdeal.Read

/-- The regressor's column [128, 1] viewed as a row [1, 128]: entry (0, j) is entry (j, 0). -/
theorem columnAsRow_apply (x : Cert.KernelIdeal.S128x1.Idx → EReal)
    (h : Cert.KernelIdeal.S128x1.ShapeCasts Cert.KernelIdeal.S1x128) (j : Fin 128) :
    shapeCast Cert.KernelIdeal.S1x128 x h (ix2 (0 : Fin 1) j) = x (ix2 j (0 : Fin 1)) :=
  shapeCast_apply x h _ _ (by
    rw [Shape.rowMajor_val_two, Shape.rowMajor_val_two]
    show j.val * 1 + 0 = 0 * 128 + j.val
    omega)

/-- The first layer. -/
theorem relu_eq (x0 : Cert.ReferenceIdeal.S50000x128.Idx → EReal) (x1 x2 : Cert.ReferenceIdeal.S600000.Idx → BitVec 32)
    (x3 : Cert.ReferenceIdeal.S128x128.Idx → EReal) (x4 : Cert.ReferenceIdeal.S128.Idx → EReal)
    (h4 : Cert.KernelIdeal.S128.ShapeCasts Cert.KernelIdeal.S1x128) :
    Cert.KernelIdeal.Layer0.reluLayer (val_main_v23 (F := Ideal) x0 x1 x2) x3
        (shapeCast Cert.KernelIdeal.S1x128 x4 h4)
      = val_main_v28 (F := Ideal) x0 x1 x2 x3 x4 := by
  funext i
  obtain ⟨r, q, rfl⟩ : ∃ (r : Fin 50000) (q : Fin 128), i = ix2 r q := ⟨i 0, i 1, eq_ix2 i⟩
  rw [val_main_v28_apply, val_main_v27_apply, val_main_v24_apply, val_main_v26_apply, val_main_v25_apply,
    val_main_call0_v0_apply, val_main_call0_cst_apply]
  generalize val_main_v23 (F := Ideal) x0 x1 x2 = A
  show Cert.KernelIdeal.Layer0.reluAt A x3 _ r q = _
  unfold Cert.KernelIdeal.Layer0.reluAt
  rw [shapeCast_a_1a_apply]
  have el : ∀ k : Fin 128, lidx_main_v24 (ix2 r q) k = ix2 r k := fun k =>
    funext fun a => Fin.ext (by match a with | ⟨0, _⟩ => rfl | ⟨1, _⟩ => rfl)
  have er : ∀ k : Fin 128, ridx_main_v24 (ix2 r q) k = ix2 k q := fun k =>
    funext fun a => Fin.ext (by match a with | ⟨0, _⟩ => rfl | ⟨1, _⟩ => rfl)
  have eb : idx_main_v25 (idx_main_v26 (ix2 r q)) = ix1 q :=
    funext fun a => Fin.ext (by match a with | ⟨0, _⟩ => rfl)
  simp only [el, er, eb]
  rfl

/-- The second layer and the regressor. -/
theorem regress_eq (x0 : Cert.ReferenceIdeal.S50000x128.Idx → EReal) (x1 x2 : Cert.ReferenceIdeal.S600000.Idx → BitVec 32)
    (x3 : Cert.ReferenceIdeal.S128x128.Idx → EReal) (x4 : Cert.ReferenceIdeal.S128.Idx → EReal)
    (x5 : Cert.ReferenceIdeal.S128x128.Idx → EReal) (x6 : Cert.ReferenceIdeal.S128.Idx → EReal)
    (x7 : Cert.ReferenceIdeal.S128x1.Idx → EReal) (x8 : Cert.ReferenceIdeal.S1.Idx → EReal)
    (h6 : Cert.KernelIdeal.S128.ShapeCasts Cert.KernelIdeal.S1x128)
    (h7 : Cert.KernelIdeal.S128x1.ShapeCasts Cert.KernelIdeal.S1x128)
    (h8 : Cert.KernelIdeal.S1.ShapeCasts Cert.KernelIdeal.S1x1) :
    Cert.KernelIdeal.Layer1.regressLayer (val_main_v44 (F := Ideal) x0 x1 x2 x3 x4) x5
        (shapeCast Cert.KernelIdeal.S1x128 x6 h6)
        (shapeCast Cert.KernelIdeal.S1x128 x7 h7)
        (shapeCast Cert.KernelIdeal.S1x1 x8 h8)
      = val_main_v52 (F := Ideal) x0 x1 x2 x3 x4 x5 x6 x7 x8 := by
  funext i
  obtain ⟨r, u, rfl⟩ : ∃ (r : Fin 50000) (u : Fin 1), i = ix2 r u := ⟨i 0, i 1, eq_ix2 i⟩
  obtain rfl : u = 0 := Subsingleton.elim _ _
  rw [val_main_v52_apply, val_main_v49_apply, val_main_v51_apply, val_main_v50_apply]
  simp only [val_main_v48_apply, val_main_v45_apply, val_main_v47_apply, val_main_v46_apply]
  generalize val_main_v44 (F := Ideal) x0 x1 x2 x3 x4 = A
  show Cert.KernelIdeal.Layer1.regressAt A x5 _ _ _ r = _
  unfold Cert.KernelIdeal.Layer1.regressAt
  rw [shapeCast_a_1a_apply]
  simp only [shapeCast_a_1a_apply, columnAsRow_apply]
  have el : ∀ j : Fin 128, lidx_main_v49 (ix2 r (0 : Fin 1)) j = ix2 r j := fun j =>
    funext fun a => Fin.ext (by match a with | ⟨0, _⟩ => rfl | ⟨1, _⟩ => rfl)
  have er : ∀ j : Fin 128, ridx_main_v49 (ix2 r (0 : Fin 1)) j = ix2 j (0 : Fin 1) := fun j =>
    funext fun a => Fin.ext (by match a with | ⟨0, _⟩ => rfl | ⟨1, _⟩ => rfl)
  have el' : ∀ j k : Fin 128, lidx_main_v45 (ix2 r j) k = ix2 r k := fun j k =>
    funext fun a => Fin.ext (by match a with | ⟨0, _⟩ => rfl | ⟨1, _⟩ => rfl)
  have er' : ∀ j k : Fin 128, ridx_main_v45 (ix2 r j) k = ix2 k j := fun j k =>
    funext fun a => Fin.ext (by match a with | ⟨0, _⟩ => rfl | ⟨1, _⟩ => rfl)
  have eb : ∀ j : Fin 128, idx_main_v46 (idx_main_v47 (ix2 r j)) = ix1 j := fun j =>
    funext fun a => Fin.ext (by match a with | ⟨0, _⟩ => rfl)
  have eβ : idx_main_v50 (idx_main_v51 (ix2 r (0 : Fin 1))) = ix1 (0 : Fin 1) :=
    funext fun a => Fin.ext (by match a with | ⟨0, _⟩ => rfl)
  simp only [el, er, el', er', eb, eβ]
  rfl

end Cert.RefLayers

end
-- ==== Proof.HostStretches.lean ====
/-
  The host stretches of the kernel's program, read in the reference's vocabulary.

  Between its launches the kernel's program runs the same host operations as the reference: the self-loops appended
  to the two edge lists, the in-degrees by a scatter-add of ones and their inverse square roots, and, once per layer,
  the normalised gather / scatter-add aggregation. Read at the buffers the two launches use, the contents at each
  segment boundary are therefore the reference's own stages of the launch arguments:
  • entering the first launch, the aggregated features are the reference's first aggregation, the weights are the
    argument W1 and the bias row is the argument b1 viewed as [1, 128];
  • leaving it, the output array is the rectified dense layer of those, which is the reference's first layer;
  • entering the second launch, the aggregated features are the reference's second aggregation (the same host
    operations applied to the first layer), and W2, b2, Wr, br arrive as themselves or as row views;
  • leaving it, the output column is the reference's regressed second layer, and the closing reshape to a vector is
    the reference's closing reshape.
-/
import proofs.«111250_j43009802502548_1_alg».proof.Proof.Gen.KernelIdeal.Frame
import proofs.«111250_j43009802502548_1_alg».proof.Proof.Gen.ReferenceIdeal.Read
import proofs.«111250_j43009802502548_1_alg».proof.Proof.Layer0Value
import proofs.«111250_j43009802502548_1_alg».proof.Proof.Layer1Value
import proofs.«111250_j43009802502548_1_alg».proof.Proof.RefLayers
import Idealize.ShloMosaic.Lib.StableHlo.Run

set_option maxRecDepth 16384

noncomputable section

namespace Cert.KernelIdeal.Stretches

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg)

/-! ## Entering the first launch -/

theorem V1_v1 (c : Dev nD) : V1 m ρ c main_v1 = val_main_v1 (F := Ideal) (m ((c : Thread nD τ).loc main_arg1)) := by
  show StableHlo.after hostOps0 (W0 m ρ c) (Proc.devRef .tc main_v1) = _
  after_results_simp
  rfl

theorem V1_v2 (c : Dev nD) : V1 m ρ c main_v2 = val_main_v2 (F := Ideal) (m ((c : Thread nD τ).loc main_arg2)) := by
  show StableHlo.after hostOps0 (W0 m ρ c) (Proc.devRef .tc main_v2) = _
  after_results_simp
  rfl

theorem V1_v7 (c : Dev nD) : V1 m ρ c main_v7 = val_main_v7 (F := Ideal) (m ((c : Thread nD τ).loc main_arg2)) := by
  show StableHlo.after hostOps0 (W0 m ρ c) (Proc.devRef .tc main_v7) = _
  after_results_simp
  rfl

theorem V1_v23 (c : Dev nD) : V1 m ρ c main_v23 = val_main_v23 (F := Ideal) (m ((c : Thread nD τ).loc main_arg0)) (m ((c : Thread nD τ).loc main_arg1)) (m ((c : Thread nD τ).loc main_arg2)) := by
  show StableHlo.after hostOps0 (W0 m ρ c) (Proc.devRef .tc main_v23) = _
  after_results_simp
  rfl

theorem V1_v24 (c : Dev nD) : V1 m ρ c main_v24 = shapeCast S1x128 (m ((c : Thread nD τ).loc main_arg4)) shapeCasts_S128_S1x128 := by
  show StableHlo.after hostOps0 (W0 m ρ c) (Proc.devRef .tc main_v24) = _
  after_results_simp
  rfl

theorem V1_arg3 (c : Dev nD) : V1 m ρ c main_arg3 = (m ((c : Thread nD τ).loc main_arg3)) := by
  show StableHlo.after hostOps0 (W0 m ρ c) (Proc.devRef .tc main_arg3) = _
  after_results_simp

theorem V1_arg5 (c : Dev nD) : V1 m ρ c main_arg5 = (m ((c : Thread nD τ).loc main_arg5)) := by
  show StableHlo.after hostOps0 (W0 m ρ c) (Proc.devRef .tc main_arg5) = _
  after_results_simp

theorem V1_arg6 (c : Dev nD) : V1 m ρ c main_arg6 = (m ((c : Thread nD τ).loc main_arg6)) := by
  show StableHlo.after hostOps0 (W0 m ρ c) (Proc.devRef .tc main_arg6) = _
  after_results_simp

theorem V1_arg7 (c : Dev nD) : V1 m ρ c main_arg7 = (m ((c : Thread nD τ).loc main_arg7)) := by
  show StableHlo.after hostOps0 (W0 m ρ c) (Proc.devRef .tc main_arg7) = _
  after_results_simp

theorem V1_arg8 (c : Dev nD) : V1 m ρ c main_arg8 = (m ((c : Thread nD τ).loc main_arg8)) := by
  show StableHlo.after hostOps0 (W0 m ρ c) (Proc.devRef .tc main_arg8) = _
  after_results_simp

/-! ## Leaving the first launch -/

/-- The first launch's output array is the reference's first layer. -/
theorem W2_v25 (c : Dev nD) : W2 m ρ c (Proc.devRef .tc main_v25) = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 3).trans ?_
  rw [Layer0.final (V1 m ρ) c, V1_v23 m ρ c, V1_arg3 m ρ c, V1_v24 m ρ c]
  exact Cert.RefLayers.relu_eq _ _ _ _ _ _

theorem W2_v1 (c : Dev nD) : W2 m ρ c (Proc.devRef .tc main_v1) = val_main_v1 (F := Ideal) (m ((c : Thread nD τ).loc main_arg1)) :=
  (W2_of_ne m ρ c main_v1 (by decide)).trans (V1_v1 m ρ c)

theorem W2_v2 (c : Dev nD) : W2 m ρ c (Proc.devRef .tc main_v2) = val_main_v2 (F := Ideal) (m ((c : Thread nD τ).loc main_arg2)) :=
  (W2_of_ne m ρ c main_v2 (by decide)).trans (V1_v2 m ρ c)

theorem W2_v7 (c : Dev nD) : W2 m ρ c (Proc.devRef .tc main_v7) = val_main_v7 (F := Ideal) (m ((c : Thread nD τ).loc main_arg2)) :=
  (W2_of_ne m ρ c main_v7 (by decide)).trans (V1_v7 m ρ c)

theorem W2_arg5 (c : Dev nD) : W2 m ρ c (Proc.devRef .tc main_arg5) = (m ((c : Thread nD τ).loc main_arg5)) :=
  (W2_of_ne m ρ c main_arg5 (by decide)).trans (V1_arg5 m ρ c)

theorem W2_arg6 (c : Dev nD) : W2 m ρ c (Proc.devRef .tc main_arg6) = (m ((c : Thread nD τ).loc main_arg6)) :=
  (W2_of_ne m ρ c main_arg6 (by decide)).trans (V1_arg6 m ρ c)

theorem W2_arg7 (c : Dev nD) : W2 m ρ c (Proc.devRef .tc main_arg7) = (m ((c : Thread nD τ).loc main_arg7)) :=
  (W2_of_ne m ρ c main_arg7 (by decide)).trans (V1_arg7 m ρ c)

theorem W2_arg8 (c : Dev nD) : W2 m ρ c (Proc.devRef .tc main_arg8) = (m ((c : Thread nD τ).loc main_arg8)) :=
  (W2_of_ne m ρ c main_arg8 (by decide)).trans (V1_arg8 m ρ c)

/-! ## Entering the second launch -/

/-- The second aggregation: the reference's, of its first layer. -/
theorem V3_v41 (c : Dev nD) : V3 m ρ c main_v41 = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v41) = _
  after_results_simp
  rw [W2_v25 m ρ c, W2_v7 m ρ c, W2_v1 m ρ c, W2_v2 m ρ c]
  rfl

theorem V3_arg5 (c : Dev nD) : V3 m ρ c main_arg5 = (m ((c : Thread nD τ).loc main_arg5)) := by
  show StableHlo.after hostOps1 (W2 m ρ c) (Proc.devRef .tc main_arg5) = _
  after_results_simp
  rw [W2_arg5 m ρ c]

theorem V3_v42 (c : Dev nD) : V3 m ρ c main_v42 = shapeCast S1x128 (m ((c : Thread nD τ).loc main_arg6)) shapeCasts_S128_S1x128 := by
  show StableHlo.after hostOps1 (W2 m ρ c) (Proc.devRef .tc main_v42) = _
  after_results_simp
  rw [W2_arg6 m ρ c]
  rfl

theorem V3_v43 (c : Dev nD) : V3 m ρ c main_v43 = shapeCast S1x128 (m ((c : Thread nD τ).loc main_arg7)) shapeCasts_S128x1_S1x128 := by
  show StableHlo.after hostOps1 (W2 m ρ c) (Proc.devRef .tc main_v43) = _
  after_results_simp
  rw [W2_arg7 m ρ c]
  rfl

theorem V3_v44 (c : Dev nD) : V3 m ρ c main_v44 = shapeCast S1x1 (m ((c : Thread nD τ).loc main_arg8)) shapeCasts_S1_S1x1 := by
  show StableHlo.after hostOps1 (W2 m ρ c) (Proc.devRef .tc main_v44) = _
  after_results_simp
  rw [W2_arg8 m ρ c]
  rfl

/-! ## Leaving the second launch, and the result -/

/-- The second launch's output column is the reference's regressed second layer. -/
theorem W4_v45 (c : Dev nD) : W4 m ρ c (Proc.devRef .tc main_v45) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ?_
  rw [Layer1.final (V3 m ρ) c, V3_v41 m ρ c, V3_arg5 m ρ c, V3_v42 m ρ c, V3_v43 m ρ c, V3_v44 m ρ c]
  exact Cert.RefLayers.regress_eq _ _ _ _ _ _ _ _ _ _ _ _

/-- The program's result array, at the last segment boundary, is the reference's result stage of the launch
    arguments. -/
theorem result_eq (c : Dev nD) : W5 m ρ c (Proc.devRef .tc main_v46) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v46) = _
  after_results_simp
  rw [W4_v45 m ρ c]
  rfl

end Cert.KernelIdeal.Stretches

end
-- ==== Proof.lean ====
/-
  A two-layer graph convolution with a linear regressor, against its reference.

  Both programs append a self-loop to every node of the edge list, count in-degrees by a scatter-add of ones, take
  the inverse square roots d, and then twice aggregate features along the edges: scale row r of the features by
  d r, gather the source rows, scatter-add them onto the destination rows, scale by d again. These host operations
  are the same text in both programs. Between the aggregations they differ:

  • the reference applies relu (A · W1 + b1) with a host matrix product, and after the second aggregation
    (A' · W2 + b2) · Wr + br, two more host products, then drops the unit axis;
  • the kernel does each dense step in a launch over 25 blocks of 2000 rows: the first stores
    max (A · W1 + b1) 0 block by block, the second stores, for each row, the sum over the 128 columns of
    (A' · W2 + b2) times the regressor's weights, plus its bias.

  Over the extended reals the format changes inside the launches are the identity, a block product into a zero
  accumulator is the plain sum over the contraction index, a lane sum from the zero word is the plain sum, and a
  row of (A' · W2 + b2) times the regressor's column, summed, is the entry of the host product with that column. So
  each launch's output array, as a function of the arrays it is entered with, is the reference's stage at the same
  place (Layer0Value, Layer1Value, RefLayers); the host stretches around them are the reference's own operations
  (HostStretches); hence the kernel's result array is the reference's result stage of the launch arguments, and the
  two runs from agreeing arguments end with equal results. No law of arithmetic beyond these readings is used, so
  the precondition is never opened. The rewrite ledger is empty: the idealized kernel is the kernel's own text.
-/
import proofs.«111250_j43009802502548_1_alg».proof.Defs
import proofs.«111250_j43009802502548_1_alg».proof.Proof.Gen.Kernel
import proofs.«111250_j43009802502548_1_alg».proof.Proof.Gen.Kernel.Frame
import proofs.«111250_j43009802502548_1_alg».proof.Proof.Gen.KernelIdeal
import proofs.«111250_j43009802502548_1_alg».proof.Proof.Gen.KernelIdeal.Frame
import proofs.«111250_j43009802502548_1_alg».proof.Proof.Gen.ReferenceIdeal
import proofs.«111250_j43009802502548_1_alg».proof.Proof.Gen.ReferenceIdeal.Run
import proofs.«111250_j43009802502548_1_alg».proof.Proof.Gen.ReferenceIdeal.Read
import proofs.«111250_j43009802502548_1_alg».proof.Proof.Gen.Pre_finite_inputs
import proofs.«111250_j43009802502548_1_alg».proof.Proof.RunValue
import proofs.«111250_j43009802502548_1_alg».proof.Proof.HostStretches
import Idealize.ShloMosaic.Adequacy
import Idealize.ShloMosaic.Init

noncomputable section

namespace Cert.Proof

open Idealize.ShloMosaic Idealize.ShloMosaic.TcCoe Idealize.SL.Sem

/-- The word-level kernel runs to the end and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, both programs end at the reference's result stage of those arguments. -/
theorem algebraic : Cert.algebraic_KernelIdeal_ReferenceIdeal := by
  intro m ρ m' ρ' _ hagree
  refine ⟨fun c => Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Stretches.result_eq m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v53_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
